-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x1x1024x1024 : Shape := ⟨4, ![32, 1, 1024, 1024]⟩
abbrev S_ : Shape := ⟨0, ![]⟩

class Facts : Prop where
  bcast_S_S32x1x1024x1024 : S_.BroadcastsInDim S32x1x1024x1024 (![] : Fin 0 → Fin S32x1x1024x1024.rank)
  reducesTo_S32x1x1024x1024_S_d0_1_2_3 : S32x1x1024x1024.ReducesTo [0, 1, 2, 3] S_
  h_S_ : 0 < S_.numel

variable [Facts]

def fn {F : FTy → Type} [FloatOps F] (main_arg0 : FVec F S32x1x1024x1024 .f32) : IVec S_ 1 :=
  let main_v0 : FVec F S32x1x1024x1024 .f32 := Host.absf main_arg0
  let main_cst : FVec F S_ .f32 := constant S_ .f32 0x7F800000#32
  let main_v1 : FVec F S32x1x1024x1024 .f32 := broadcastInDim S32x1x1024x1024 ![] bcast_S_S32x1x1024x1024 main_cst
  let main_v2 : IVec S32x1x1024x1024 1 := cmpf .olt main_v0 main_v1
  let main_c : IVec S_ 1 := constantI S_ 1 1#1
  let main_v3 : IVec S_ 1 := (fun x v => Host.reduce IntOp.andi x v reducesTo_S32x1x1024x1024_S_d0_1_2_3 h_S_) main_v2 main_c
  main_v3
-- ==== Kernel.lean ====
abbrev S32x1x1024x1024 : Shape := ⟨4, ![32, 1, 1024, 1024]⟩
abbrev S32x4x1024x1024 : Shape := ⟨4, ![32, 4, 1024, 1024]⟩
abbrev S1x1x512x1024 : Shape := ⟨4, ![1, 1, 512, 1024]⟩
abbrev S1x4x512x1024 : Shape := ⟨4, ![1, 4, 512, 1024]⟩
abbrev S512x1024 : Shape := ⟨2, ![512, 1024]⟩

abbrev nBuf : Space → Nat
  | .hbm => 2
  | .vmem => 4
  | .smem => 0
  | _ => 0

abbrev bufTy : (tb : Table) → Fin (tcTables nBuf tb) → BufTy
  | .hbm, ⟨0, _⟩ => ⟨S32x1x1024x1024, .f32⟩
  | .hbm, ⟨1, _⟩ => ⟨S32x4x1024x1024, .f32⟩
  | .local _ .vmem, ⟨0, _⟩ => ⟨S1x1x512x1024, .f32⟩
  | .local _ .vmem, ⟨1, _⟩ => ⟨S1x1x512x1024, .f32⟩
  | .local _ .vmem, ⟨2, _⟩ => ⟨S1x4x512x1024, .f32⟩
  | .local _ .vmem, ⟨3, _⟩ => ⟨S1x4x512x1024, .f32⟩
  | _, _ => ⟨S32x1x1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![32, 2], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

abbrev stage0_0 : Fin 2 → Memref sig .tc .vmem S1x1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x4x512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

class Facts₀ : Prop where
  inb_S1x1x512x1024_S1x1x512x1024_0_0_0_0 : ∀ a, (![0, 0, 0, 0] : Fin 4 → Nat) a + S1x1x512x1024.size a ≤ S1x1x512x1024.size a
  h_S1x1x512x1024 : 0 < S1x1x512x1024.numel
  shapeCasts_S1x1x512x1024_S512x1024 : S1x1x512x1024.ShapeCasts S512x1024
  natLt_1_32 : 1 < 32
  inb_S1x4x512x1024_S1x1x512x1024_0_0_0_0 : ∀ a, (![0, 0, 0, 0] : Fin 4 → Nat) a + S1x1x512x1024.size a ≤ S1x4x512x1024.size a
  shapeCasts_S512x1024_S1x1x512x1024 : S512x1024.ShapeCasts S1x1x512x1024
  inb_S1x4x512x1024_S1x1x512x1024_0_1_0_0 : ∀ a, (![0, 1, 0, 0] : Fin 4 → Nat) a + S1x1x512x1024.size a ≤ S1x4x512x1024.size a
  inb_S1x4x512x1024_S1x1x512x1024_0_2_0_0 : ∀ a, (![0, 2, 0, 0] : Fin 4 → Nat) a + S1x1x512x1024.size a ≤ S1x4x512x1024.size a
  inb_S1x4x512x1024_S1x1x512x1024_0_3_0_0 : ∀ a, (![0, 3, 0, 0] : Fin 4 → Nat) a + S1x1x512x1024.size a ≤ S1x4x512x1024.size a
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1x512x1024.size a ≤ S32x1x1024x1024.size a
  hwx0_0 : ∀ i : grid0.Coords, EltTy.bits .f32 = 32 ∨ (Rect.block (s := S32x1x1024x1024) S1x1x512x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x4x512x1024.size a ≤ S32x4x1024x1024.size a
  hwx0_1 : ∀ i : grid0.Coords, EltTy.bits .f32 = 32 ∨ (Rect.block (s := S32x4x1024x1024) S1x4x512x1024.size (cc0_transform_1 i) (hinb0_1 i)).WholeWords (EltTy.packing .f32)

variable [Facts₀]

abbrev win0_0 : Pipeline.Window sig grid0 :=
  Pipeline.Window.ofSpec (Memref.whole main_arg0) S1x1x512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x4x512x1024.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S32x1x1024x1024 : Shape := ⟨4, ![32, 1, 1024, 1024]⟩
abbrev S4 : Shape := ⟨1, ![4]⟩
abbrev S1x4x1x1 : Shape := ⟨4, ![1, 4, 1, 1]⟩
abbrev S32x4x1024x1024 : Shape := ⟨4, ![32, 4, 1024, 1024]⟩

abbrev nBuf : Space → Nat
  | .hbm => 7
  | .vmem => 0
  | .smem => 0
  | _ => 0

abbrev bufTy : (tb : Table) → Fin (tcTables nBuf tb) → BufTy
  | .hbm, ⟨0, _⟩ => ⟨S32x1x1024x1024, .f32⟩
  | .hbm, ⟨1, _⟩ => ⟨S4, .f32⟩
  | .hbm, ⟨2, _⟩ => ⟨S1x4x1x1, .f32⟩
  | .hbm, ⟨3, _⟩ => ⟨S32x4x1024x1024, .f32⟩
  | .hbm, ⟨4, _⟩ => ⟨S32x4x1024x1024, .f32⟩
  | .hbm, ⟨5, _⟩ => ⟨S32x4x1024x1024, .i1⟩
  | .hbm, ⟨6, _⟩ => ⟨S32x4x1024x1024, .f32⟩
  | _, _ => ⟨S32x1x1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]

class Facts₀ : Prop where
  bcast_S4_S1x4x1x1_1 : S4.BroadcastsInDim S1x4x1x1 (![1] : Fin 1 → Fin S1x4x1x1.rank)
  bcast_S32x1x1024x1024_S32x4x1024x1024_0_1_2_3 : S32x1x1024x1024.BroadcastsInDim S32x4x1024x1024 (![0, 1, 2, 3] : Fin 4 → Fin S32x4x1024x1024.rank)
  bcast_S1x4x1x1_S32x4x1024x1024_0_1_2_3 : S1x4x1x1.BroadcastsInDim S32x4x1024x1024 (![0, 1, 2, 3] : Fin 4 → Fin S32x4x1024x1024.rank)

variable [Facts₀]

class Facts : Prop extends Facts₀ where

variable [Facts]
-- ==== Proof.Bitmap.lean ====
/-
  The binarised score maps, as ONE function of the score array.

  For a score array `x` over [32, 1, 1024, 1024] and four thresholds t₀ < t₁ < t₂ < t₃ (the single-precision numbers
  nearest 0.2, 0.3, 0.4 and the number 0.5, each kept as its 32-bit word: the same word stands in both programs, so its
  value is never needed), the result over [32, 4, 1024, 1024] holds at (n, k, h, w)
      1  if  x(n, 0, h, w) > t_k,   0  otherwise:
  the comparison's one bit read as an unsigned integer. Both programs compute exactly this, the one by a zero-extension
  of the bit to 32 bits followed by a signed conversion, the other by an unsigned conversion of the bit itself; on a word
  that is 0 or 1 the two conversions agree (`signed_of_widened_bit`). No law of the extended reals is used, and nothing
  is asked of the scores (they may be infinite).
-/
import Idealize.ShloMosaic.Lib.ValueIdx

noncomputable section

namespace Cert.Binarize

open Idealize.ShloMosaic Idealize.ShloMosaic.ValueIdx

/-- The score array's shape. -/
abbrev Scores : Shape := ⟨4, ![32, 1, 1024, 1024]⟩
/-- The shape of the four maps. -/
abbrev Maps : Shape := ⟨4, ![32, 4, 1024, 1024]⟩

/-- The `k`-th threshold's single-precision word (`k` below 4). -/
def thresholdWord : Nat → BitVec 32
  | 0 => 0x3E4CCCCD#32
  | 1 => 0x3E99999A#32
  | 2 => 0x3ECCCCCD#32
  | _ => 0x3F000000#32

/-- One entry of a map: is the score `v` above the `k`-th threshold, as the number 1 or 0. -/
def above (k : Nat) (v : Ideal .f32) : Ideal .f32 :=
  FloatOps.uitofp (F := Ideal) .f32 (FloatOps.cmpf (F := Ideal) .ogt v (FloatOps.ofBits (F := Ideal) .f32 (thresholdWord k)))

/-- The four maps of a score array: entry (n, k, h, w) compares score (n, 0, h, w) with threshold k. -/
def maps (x : FVec Ideal Scores .f32) : FVec Ideal Maps .f32 :=
  fun j => above (j 1).val (x (ix4 (j 0) 0 (j 2) (j 3)))

/-- A bit widened to 32 bits by zeros and then read as a SIGNED integer is the bit read as an unsigned one:
    the widened word is 0 or 1, whose sign bit is clear. -/
theorem signed_of_widened_bit (b : BitVec 1) :
    FloatOps.sitofp (F := Ideal) .f32 (b.setWidth 32) = FloatOps.uitofp (F := Ideal) .f32 b := by
  show (((b.setWidth 32).toInt : ℝ) : EReal) = ((b.toNat : ℝ) : EReal)
  have h : (b.setWidth 32).toInt = (b.toNat : ℤ) := by
    have hb : b.toNat < 2 := b.isLt
    rw [BitVec.toInt_eq_toNat_of_lt (by rw [BitVec.toNat_setWidth]; omega), BitVec.toNat_setWidth]
    omega
  rw [h, Int.cast_natCast]

/-- So the kernel's way of turning the comparison into a number is `above`. -/
theorem above_eq_signed (k : Nat) (v : Ideal .f32) :
    above k v = FloatOps.sitofp (F := Ideal) .f32
      ((FloatOps.cmpf (F := Ideal) .ogt v (FloatOps.ofBits (F := Ideal) .f32 (thresholdWord k))).setWidth 32) :=
  (signed_of_widened_bit _).symm

end Cert.Binarize

end
-- ==== Proof.KernelBlock.lean ====
/-
  What one grid point of the kernel leaves in its block of the maps.

  At a grid point the body holds a [1, 1, 512, 1024] block `x0` of scores and writes a [1, 4, 512, 1024] block in four
  slabs, slab k (the entries (0, k, h, w)) being "x0(0, 0, h, w) > t_k" as a number: the block viewed as a matrix
  [512, 1024], compared with the broadcast threshold, the bit widened to 32 bits and converted, the matrix viewed as a
  [1, 1, 512, 1024] slab again. The two changes of view keep (h, w) and put 0 on the unit axes, so slab k at (0, 0, h, w)
  depends on the block's entry (0, 0, h, w) alone (`compare_slab`).
  The four slabs are disjoint and fill the block, and each is the restriction of one function of the block's index,
      blockMaps x0 (u, k, h, w) = [ x0(0, 0, h, w) > t_k ],
  so the block after the body is that function (`out_eq`).
-/
import proofs.«163883_j34935263986230_1_alg».proof.Proof.Gen.KernelIdeal.Frame
import proofs.«163883_j34935263986230_1_alg».proof.Proof.Bitmap
import Idealize.ShloMosaic.Lib.Pipeline.Value

noncomputable section

namespace Cert.KernelIdeal.BlockValue

open Cert.KernelIdeal Cert.KernelIdeal.Gen Idealize.ShloMosaic Idealize.ShloMosaic.ValueIdx
open Cert.Binarize (above)

/-! ## Two leading unit axes dropped or added by a change of view -/

section Views
variable {α : Type}

/-- A `[1, 1, a, b]` array viewed as `[a, b]` reads, at `(i, j)`, the operand at `(0, 0, i, j)`. -/
theorem shapeCast_11ab_ab_apply {a b : ℕ} (x : (⟨4, ![1, 1, a, b]⟩ : Shape).Idx → α)
    (h : (⟨4, ![1, 1, a, b]⟩ : Shape).ShapeCasts ⟨2, ![a, b]⟩) (i : Fin a) (j : Fin b) :
    shapeCast ⟨2, ![a, b]⟩ x h (ix2 i j) = x (ix4 (0 : Fin 1) (0 : Fin 1) i j) :=
  shapeCast_apply x h _ _ (by
    rw [Shape.rowMajor_val_four, Shape.rowMajor_val_two]
    show ((0 * 1 + 0) * a + i.val) * b + j.val = i.val * b + j.val
    simp only [Nat.zero_mul, Nat.zero_add])

/-- An `[a, b]` array viewed as `[1, 1, a, b]` reads, at `(u, v, i, j)`, the operand at `(i, j)`, whatever the unit
    coordinates. -/
theorem shapeCast_ab_11ab_apply {a b : ℕ} (x : (⟨2, ![a, b]⟩ : Shape).Idx → α)
    (h : (⟨2, ![a, b]⟩ : Shape).ShapeCasts ⟨4, ![1, 1, a, b]⟩) (u v : Fin 1) (i : Fin a) (j : Fin b) :
    shapeCast ⟨4, ![1, 1, a, b]⟩ x h (ix4 u v i j) = x (ix2 i j) :=
  shapeCast_apply x h _ _ (by
    have hu : u.val = 0 := by omega
    have hv : v.val = 0 := by omega
    rw [Shape.rowMajor_val_four, Shape.rowMajor_val_two]
    show i.val * b + j.val = ((u.val * 1 + v.val) * a + i.val) * b + j.val
    rw [hu, hv]
    simp only [Nat.zero_mul, Nat.zero_add])

end Views

/-! ## One slab -/

/-- A slab as the body computes it, for any threshold word: at `(u, v, h, w)` it is the comparison of the block's
    entry `(0, 0, h, w)` with the threshold, widened and converted. -/
theorem compare_slab (word : BitVec 32) (h1 : S1x1x512x1024.ShapeCasts S512x1024) (h2 : S512x1024.ShapeCasts S1x1x512x1024)
    (h3 : 1 < 32) (v0 : FVec Ideal S1x1x512x1024 .f32) (u v : Fin 1) (h : Fin 512) (w : Fin 1024) :
    shapeCast S1x1x512x1024
      (sitofp (F := Ideal) .f32 (extui 32 (cmpf .ogt (shapeCast S512x1024 v0 h1)
        (broadcast S512x1024 (Scalar.ofBits (F := Ideal) .f32 word))) h3)) h2 (ix4 u v h w)
    = FloatOps.sitofp (F := Ideal) .f32
        ((FloatOps.cmpf (F := Ideal) .ogt (v0 (ix4 0 0 h w)) (FloatOps.ofBits (F := Ideal) .f32 word)).setWidth 32) := by
  rw [shapeCast_ab_11ab_apply]
  show FloatOps.sitofp (F := Ideal) .f32
      ((FloatOps.cmpf (F := Ideal) .ogt (shapeCast S512x1024 v0 h1 (ix2 h w)) (FloatOps.ofBits (F := Ideal) .f32 word)).setWidth 32) = _
  rw [shapeCast_11ab_ab_apply]

/-- The four slabs' values: the comparison with threshold 0, 1, 2, 3 as a number. -/
theorem slab0 (v0 : FVec Ideal S1x1x512x1024 .f32) (u v : Fin 1) (h : Fin 512) (w : Fin 1024) :
    k0_pay2 (F := Ideal) v0 (ix4 u v h w) = above 0 (v0 (ix4 0 0 h w)) :=
  (compare_slab 0x3E4CCCCD#32 _ _ _ v0 u v h w).trans (Cert.Binarize.above_eq_signed 0 _).symm
theorem slab1 (v0 : FVec Ideal S1x1x512x1024 .f32) (u v : Fin 1) (h : Fin 512) (w : Fin 1024) :
    k0_pay3 (F := Ideal) v0 (ix4 u v h w) = above 1 (v0 (ix4 0 0 h w)) :=
  (compare_slab 0x3E99999A#32 _ _ _ v0 u v h w).trans (Cert.Binarize.above_eq_signed 1 _).symm
theorem slab2 (v0 : FVec Ideal S1x1x512x1024 .f32) (u v : Fin 1) (h : Fin 512) (w : Fin 1024) :
    k0_pay4 (F := Ideal) v0 (ix4 u v h w) = above 2 (v0 (ix4 0 0 h w)) :=
  (compare_slab 0x3ECCCCCD#32 _ _ _ v0 u v h w).trans (Cert.Binarize.above_eq_signed 2 _).symm
theorem slab3 (v0 : FVec Ideal S1x1x512x1024 .f32) (u v : Fin 1) (h : Fin 512) (w : Fin 1024) :
    k0_pay5 (F := Ideal) v0 (ix4 u v h w) = above 3 (v0 (ix4 0 0 h w)) :=
  (compare_slab 0x3F000000#32 _ _ _ v0 u v h w).trans (Cert.Binarize.above_eq_signed 3 _).symm

/-! ## The block -/

/-- The block of maps a block of scores gives: entry `(u, k, h, w)` compares the score `(0, 0, h, w)` with threshold `k`. -/
def blockMaps (x0 : FVec Ideal S1x1x512x1024 .f32) : FVec Ideal S1x4x512x1024 .f32 :=
  fun y => above (y 1).val (x0 (ix4 0 0 (y 2) (y 3)))

/-- `blockMaps` at an index whose coordinates on axes 1, 2, 3 are known. -/
theorem blockMaps_apply (x0 : FVec Ideal S1x1x512x1024 .f32) (y : S1x4x512x1024.Idx) (k : Nat) (h : Fin 512) (w : Fin 1024)
    (hk : (y 1).val = k) (hh : (y 2).val = h.val) (hw : (y 3).val = w.val) :
    blockMaps x0 y = above k (x0 (ix4 0 0 h w)) := by
  have e : (ix4 (0 : Fin 1) (0 : Fin 1) (y 2) (y 3) : S1x1x512x1024.Idx) = ix4 0 0 h w := by
    funext a
    match a with
    | ⟨0, _⟩ => rfl
    | ⟨1, _⟩ => rfl
    | ⟨2, _⟩ => exact Fin.ext hh
    | ⟨3, _⟩ => exact Fin.ext hw
  unfold blockMaps
  rw [hk, e]

/-- Slab `k` is `blockMaps` on the rectangle it is stored through (offset `k` on axis 1, the whole of the other axes). -/
theorem piece0 (x0 : FVec Ideal S1x1x512x1024 .f32) (x : S1x1x512x1024.Idx) :
    k0_pay2 (F := Ideal) x0 x = blockMaps x0 (r0_1.emb x) := by
  obtain ⟨u, v, h, w, rfl⟩ : ∃ (u v : Fin 1) (h : Fin 512) (w : Fin 1024), x = ix4 u v h w := ⟨x 0, x 1, x 2, x 3, eq_ix4 x⟩
  refine (slab0 x0 u v h w).trans (blockMaps_apply x0 _ 0 h w ?_ ?_ ?_).symm
  · show 0 + 1 * v.val = 0; omega
  · show 0 + 1 * h.val = h.val; omega
  · show 0 + 1 * w.val = w.val; omega
theorem piece1 (x0 : FVec Ideal S1x1x512x1024 .f32) (x : S1x1x512x1024.Idx) :
    k0_pay3 (F := Ideal) x0 x = blockMaps x0 (r0_2.emb x) := by
  obtain ⟨u, v, h, w, rfl⟩ : ∃ (u v : Fin 1) (h : Fin 512) (w : Fin 1024), x = ix4 u v h w := ⟨x 0, x 1, x 2, x 3, eq_ix4 x⟩
  refine (slab1 x0 u v h w).trans (blockMaps_apply x0 _ 1 h w ?_ ?_ ?_).symm
  · show 1 + 1 * v.val = 1; omega
  · show 0 + 1 * h.val = h.val; omega
  · show 0 + 1 * w.val = w.val; omega
theorem piece2 (x0 : FVec Ideal S1x1x512x1024 .f32) (x : S1x1x512x1024.Idx) :
    k0_pay4 (F := Ideal) x0 x = blockMaps x0 (r0_3.emb x) := by
  obtain ⟨u, v, h, w, rfl⟩ : ∃ (u v : Fin 1) (h : Fin 512) (w : Fin 1024), x = ix4 u v h w := ⟨x 0, x 1, x 2, x 3, eq_ix4 x⟩
  refine (slab2 x0 u v h w).trans (blockMaps_apply x0 _ 2 h w ?_ ?_ ?_).symm
  · show 2 + 1 * v.val = 2; omega
  · show 0 + 1 * h.val = h.val; omega
  · show 0 + 1 * w.val = w.val; omega
theorem piece3 (x0 : FVec Ideal S1x1x512x1024 .f32) (x : S1x1x512x1024.Idx) :
    k0_pay5 (F := Ideal) x0 x = blockMaps x0 (r0_4.emb x) := by
  obtain ⟨u, v, h, w, rfl⟩ : ∃ (u v : Fin 1) (h : Fin 512) (w : Fin 1024), x = ix4 u v h w := ⟨x 0, x 1, x 2, x 3, eq_ix4 x⟩
  refine (slab3 x0 u v h w).trans (blockMaps_apply x0 _ 3 h w ?_ ?_ ?_).symm
  · show 3 + 1 * v.val = 3; omega
  · show 0 + 1 * h.val = h.val; omega
  · show 0 + 1 * w.val = w.val; omega

theorem zero_offsets : (![0, 0, 0, 0] : Fin 4 → Nat) = fun _ => 0 := funext fun a => by fin_cases a <;> rfl

/-- THE BLOCK AFTER THE BODY is `blockMaps` of the block of scores: the four stores tile the block, and each stores
    `blockMaps` on its rectangle. -/
theorem out_eq (x0 : Vec Ideal S1x1x512x1024 .f32) : out0_1 (F := Ideal) x0 = blockMaps x0 := by
  funext y
  unfold out0_1
  simp only [View.ld_unit_zero (S := S1x1x512x1024) zero_offsets]
  refine View.canon_apply_of_pieces (Val := Elt Ideal) (e := .f32) (blockMaps x0) _ ?_ y (cover0_1 _ _ _ _ y)
  intro p hp
  simp only [List.mem_cons, List.not_mem_nil, or_false] at hp
  rcases hp with rfl | rfl | rfl | rfl
  · exact piece3 x0
  · exact piece2 x0
  · exact piece1 x0
  · exact piece0 x0

end Cert.KernelIdeal.BlockValue

end
-- ==== Proof.KernelArray.lean ====
/-
  From the blocks to the whole array of maps.

  The kernel runs over a 32 × 2 grid; at point (n, s) it reads the scores' block (n, 0, s, 0) — rows 512·s … 512·s + 511
  of image n — and writes back the maps' block (n, 0, s, 0): all four maps of image n on the same rows. So the score
  the block's entry (0, 0, h, w) holds is the array's entry (n, 0, 512·s + h, w), and the block of maps it gives,
  `blockMaps`, is the restriction to that block of ONE function of the score array, `Cert.Binarize.maps`
  (`flushed_eq`). The 64 blocks cover the array: entry (n, k, r, w) lies in the block of point (n, r / 512) (`cover`).
  Hence after the run the result array is `maps` of the scores (`final`, `run`).
-/
import proofs.«163883_j34935263986230_1_alg».proof.Proof.Gen.KernelIdeal.Value
import proofs.«163883_j34935263986230_1_alg».proof.Proof.KernelBlock

noncomputable section

namespace Cert.KernelIdeal.ArrayValue

open Cert.KernelIdeal Cert.KernelIdeal.Gen Idealize.ShloMosaic Idealize.ShloMosaic.TcCoe Idealize.SL.Sem
open Idealize.ShloMosaic.ValueIdx
open Idealize.ShloMosaic.Pipeline (Dat)
open Cert.Binarize (above maps)
open Cert.KernelIdeal.BlockValue (blockMaps)

variable (m : (ℓ : Loc nD τ sig) → Buf (Elt Ideal) ℓ) (ρ : Dev nD → PrngReg)

/-! ## The index maps, decided over the 64 grid points -/

/-- At every point the scores' block index agrees with the maps' on axes 0 and 2, and both are 0 on axes 1 and 3. -/
theorem idx_facts : ∀ t : Fin cfg0.N,
    win0_0.index t (0 : Fin 4) = win0_1.index t (0 : Fin 4)
    ∧ win0_0.index t (1 : Fin 4) = 0
    ∧ win0_0.index t (2 : Fin 4) = win0_1.index t (2 : Fin 4)
    ∧ win0_0.index t (3 : Fin 4) = 0
    ∧ win0_1.index t (1 : Fin 4) = 0
    ∧ win0_1.index t (3 : Fin 4) = 0 :=
  (by decide +kernel : ∀ t : Fin grid0.N, _)

/-- Every block (n, 0, s, 0) of the maps is some point's. -/
theorem idx_onto : ∀ (q0 : Fin 32) (q2 : Fin 2), ∃ t : Fin cfg0.N, win0_1.index t = ![q0.val, 0, q2.val, 0] :=
  (by decide +kernel : ∀ (q0 : Fin 32) (q2 : Fin 2), ∃ t : Fin grid0.N, win0_1.index t = ![q0.val, 0, q2.val, 0])

/-! ## A block of maps is the restriction of `maps` -/

/-- If a block `x0` of scores is the part of the array `X` at image `i0`, rows from `512 · i2`, then `blockMaps x0` at
    `y` is `maps X` at the array index `q` that `y` names in that block of the maps. -/
theorem blockMaps_eq_maps (X : FVec Ideal S32x1x1024x1024 .f32) (x0 : FVec Ideal S1x1x512x1024 .f32) (i0 i2 : Nat)
    (hx : ∀ (h : Fin 512) (w : Fin 1024) (p : S32x1x1024x1024.Idx), (p 0).val = i0 → (p 2).val = i2 * 512 + h.val →
      (p 3).val = w.val → x0 (ix4 0 0 h w) = X p)
    (y : S1x4x512x1024.Idx) (q : S32x4x1024x1024.Idx) (h0 : (q 0).val = i0) (h1 : (q 1).val = (y 1).val)
    (h2 : (q 2).val = i2 * 512 + (y 2).val) (h3 : (q 3).val = (y 3).val) :
    blockMaps x0 y = maps X q := by
  show above (y 1).val (x0 (ix4 0 0 (y 2) (y 3))) = above (q 1).val (X (ix4 (q 0) 0 (q 2) (q 3)))
  rw [h1, hx (y 2) (y 3) (ix4 (q 0) 0 (q 2) (q 3)) h0 h2 h3]

/-- WHAT POINT `t` WRITES BACK is block `t` of `maps` of the scores as the region finds them. -/
theorem flushed_eq (c : Dev nD) (t : Fin cfg0.N) :
    (dats m 0 c).flushed 1 t = ((cfg0.win 1).blk t).view.read (Elt Ideal) (maps (V m c main_arg0)) := by
  rw [Cert.KernelIdeal.Value.flushed1, Cert.KernelIdeal.BlockValue.out_eq]
  obtain ⟨e0, e1, e2, e3, e4, e5⟩ := idx_facts t
  funext j
  have hj0 : (j 0).val < 1 := (j 0).isLt
  refine blockMaps_eq_maps (V m c main_arg0) (iblk m c 0 t) (win0_1.index t (0 : Fin 4)) (win0_1.index t (2 : Fin 4)) ?_
    j (((cfg0.win 1).blk t).view.emb j) ?_ ?_ ?_ ?_
  · intro h w p hp0 hp2 hp3
    have hp1 : (p 1).val < 1 := (p 1).isLt
    show V m c main_arg0 (((cfg0.win 0).blk t).view.emb (ix4 0 0 h w)) = V m c main_arg0 p
    refine congrArg _ (funext fun a => Fin.ext ?_)
    match a with
    | ⟨0, _⟩ => show win0_0.index t (0 : Fin 4) * 1 + 1 * 0 = (p 0).val; omega
    | ⟨1, _⟩ => show win0_0.index t (1 : Fin 4) * 1 + 1 * 0 = (p 1).val; omega
    | ⟨2, _⟩ => show win0_0.index t (2 : Fin 4) * 512 + 1 * h.val = (p 2).val; omega
    | ⟨3, _⟩ => show win0_0.index t (3 : Fin 4) * 1024 + 1 * w.val = (p 3).val; omega
  · show win0_1.index t (0 : Fin 4) * 1 + 1 * (j 0).val = win0_1.index t (0 : Fin 4); omega
  · show win0_1.index t (1 : Fin 4) * 4 + 1 * (j 1).val = (j 1).val; omega
  · show win0_1.index t (2 : Fin 4) * 512 + 1 * (j 2).val = win0_1.index t (2 : Fin 4) * 512 + (j 2).val; omega
  · show win0_1.index t (3 : Fin 4) * 1024 + 1 * (j 3).val = (j 3).val; omega

/-! ## The blocks cover the array -/

/-- An index of the array is in point `t`'s block iff each coordinate is in the block's range on its axis. -/
theorem mem_blk (t : Fin cfg0.N) (i : S32x4x1024x1024.Idx) :
    i ∈ ((cfg0.win 1).blk t).view.set ↔ ∀ a : Fin 4, win0_1.index t a * S1x4x512x1024.size a ≤ (i a).val
      ∧ (i a).val < win0_1.index t a * S1x4x512x1024.size a + S1x4x512x1024.size a := by
  show i ∈ ((View.whole main_v0).slice (win0_1.rect t)).set ↔ _
  rw [View.set_slice_whole, Rect.mem_set_unit]
  exact Iff.rfl

/-- Entry (n, k, r, w) is in the block of the point whose block index is (n, 0, r / 512, 0). -/
theorem cover (i : S32x4x1024x1024.Idx) :
    ∃ t : Fin cfg0.N, (cfg0.win 1).flush t = true ∧ i ∈ ((cfg0.win 1).blk t).view.set := by
  have hi0 : (i 0).val < 32 := (i 0).isLt
  have hi1 : (i 1).val < 4 := (i 1).isLt
  have hi2 : (i 2).val < 1024 := (i 2).isLt
  have hi3 : (i 3).val < 1024 := (i 3).isLt
  obtain ⟨t, ht⟩ := idx_onto ⟨(i 0).val, hi0⟩ ⟨(i 2).val / 512, by omega⟩
  have q0 : win0_1.index t (0 : Fin 4) = (i 0).val := congrFun ht 0
  have q1 : win0_1.index t (1 : Fin 4) = 0 := congrFun ht 1
  have q2 : win0_1.index t (2 : Fin 4) = (i 2).val / 512 := congrFun ht 2
  have q3 : win0_1.index t (3 : Fin 4) = 0 := congrFun ht 3
  refine ⟨t, flush0_1 t, ?_⟩
  rw [mem_blk]
  intro a
  match a with
  | ⟨0, _⟩ => show win0_1.index t (0 : Fin 4) * 1 ≤ (i 0).val ∧ (i 0).val < win0_1.index t (0 : Fin 4) * 1 + 1; omega
  | ⟨1, _⟩ => show win0_1.index t (1 : Fin 4) * 4 ≤ (i 1).val ∧ (i 1).val < win0_1.index t (1 : Fin 4) * 4 + 4; omega
  | ⟨2, _⟩ => show win0_1.index t (2 : Fin 4) * 512 ≤ (i 2).val ∧ (i 2).val < win0_1.index t (2 : Fin 4) * 512 + 512; omega
  | ⟨3, _⟩ => show win0_1.index t (3 : Fin 4) * 1024 ≤ (i 3).val ∧ (i 3).val < win0_1.index t (3 : Fin 4) * 1024 + 1024; omega

/-! ## The array after the run -/

/-- THE ARRAY of maps after the run is `maps` of the scores as launched. -/
theorem final (c : Dev nD) : (dats m 0 c).arrAt 1 cfg0.N = maps (m ((c : Thread nD τ).loc main_arg0)) :=
  (dats m 0 c).arrAt_eq_of_cover 1 (maps (V m c main_arg0)) (fun t _ => flushed_eq m c t) cover

/-- Every weakly fair execution of the kernel's program terminates with the result array at `maps` of the scores as
    launched, the scores unchanged. -/
theorem run : θ_run defs (onTc (τ := τ) (main (F := Ideal))) ⟨m, fun _ => 0, ρ⟩ fun r => ∀ c : Dev nD,
      r.2.mem ((c : Thread nD τ).loc main_v0) = maps (m ((c : Thread nD τ).loc main_arg0))
      ∧ r.2.mem ((c : Thread nD τ).loc main_arg0) = m ((c : Thread nD τ).loc main_arg0) :=
  (θ_run defs _ _).mono (fun r h c => ⟨(h c).1.trans (final m c), (h c).2⟩)
    (Cert.KernelIdeal.Value.run_blocks m ρ)

end Cert.KernelIdeal.ArrayValue

end
-- ==== Proof.ReferenceRun.lean ====
/-
  The reference program, read back.

  Its six host operations — the table of the four threshold words, that table laid along axis 1 of a [1, 4, 1, 1] array,
  the scores and the thresholds each broadcast to [32, 4, 1024, 1024], the comparison `>`, and the bit read as an
  unsigned number — are listed in order, and every weakly fair execution of the program ends with the result array at
  their composition applied to the score array, the scores unchanged (`run`).
  Read at an index (n, k, h, w): the broadcast scores give score (n, 0, h, w), the twice-broadcast table gives the
  k-th word, so the composition is the function `Cert.Binarize.maps` (`result_eq`).
-/
import proofs.«163883_j34935263986230_1_alg».proof.Proof.Gen.ReferenceIdeal
import proofs.«163883_j34935263986230_1_alg».proof.Proof.Bitmap
import Idealize.ShloMosaic.Lib.StableHlo.Run
import Idealize.ShloMosaic.Lib.Pipeline.Value

noncomputable section

namespace Cert.ReferenceIdeal.RefValue

open Cert.ReferenceIdeal Cert.ReferenceIdeal.Gen Idealize.ShloMosaic Idealize.ShloMosaic.TcCoe Idealize.SL.Sem Idealize.ShloMosaic.StableHlo
open Idealize.ShloMosaic.ValueIdx

variable {F : FTy → Type} [FloatOps F]

/-- The program's six operations, in order. -/
abbrev ops : List (HloOp τ sig (Elt F)) :=
  [ nullary main_cst (fun i => FloatOps.ofBits .f32 (lit0 (S4.rowMajor i))),
    unary main_cst main_v0 (broadcastInDim S1x4x1x1 ![1] bcast_S4_S1x4x1x1_1 : (⟨S4, .f32⟩ : BufTy).Contents (Elt F) → (⟨S1x4x1x1, .f32⟩ : BufTy).Contents (Elt F)),
    unary main_arg0 main_v1 (broadcastInDim S32x4x1024x1024 ![0, 1, 2, 3] bcast_S32x1x1024x1024_S32x4x1024x1024_0_1_2_3 : (⟨S32x1x1024x1024, .f32⟩ : BufTy).Contents (Elt F) → (⟨S32x4x1024x1024, .f32⟩ : BufTy).Contents (Elt F)),
    unary main_v0 main_v2 (broadcastInDim S32x4x1024x1024 ![0, 1, 2, 3] bcast_S1x4x1x1_S32x4x1024x1024_0_1_2_3 : (⟨S1x4x1x1, .f32⟩ : BufTy).Contents (Elt F) → (⟨S32x4x1024x1024, .f32⟩ : BufTy).Contents (Elt F)),
    binary main_v1 main_v2 main_v3 (cmpf .ogt : (⟨S32x4x1024x1024, .f32⟩ : BufTy).Contents (Elt F) → (⟨S32x4x1024x1024, .f32⟩ : BufTy).Contents (Elt F) → (⟨S32x4x1024x1024, .i1⟩ : BufTy).Contents (Elt F)),
    unary main_v3 main_v4 (uitofp .f32 : (⟨S32x4x1024x1024, .i1⟩ : BufTy).Contents (Elt F) → (⟨S32x4x1024x1024, .f32⟩ : BufTy).Contents (Elt F)) ]

theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
theorem ops_sub : (ops : List (HloOp τ sig (Elt F))).Forall fun op => op.bufs ⊆ tcRefs τ sig :=
  ⟨nullary_bufs_sub .., unary_bufs_sub .., unary_bufs_sub .., unary_bufs_sub .., binary_bufs_sub .., unary_bufs_sub ..⟩

/-- The operations' composition, as a function of the score array: compare the broadcast scores with the broadcast
    thresholds and read the bit as a number. -/
def result (x : FVec F S32x1x1024x1024 .f32) : FVec F S32x4x1024x1024 .f32 :=
  uitofp .f32 (cmpf .ogt
    (broadcastInDim S32x4x1024x1024 ![0, 1, 2, 3] bcast_S32x1x1024x1024_S32x4x1024x1024_0_1_2_3 x)
    (broadcastInDim S32x4x1024x1024 ![0, 1, 2, 3] bcast_S1x4x1x1_S32x4x1024x1024_0_1_2_3
      (broadcastInDim S1x4x1x1 ![1] bcast_S4_S1x4x1x1_1 (fun i => FloatOps.ofBits .f32 (lit0 (S4.rowMajor i))))))

/-- From any memory with zero counters, every weakly fair execution of the program terminates with the result array
    at `result` of the scores as launched, and the scores unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v4) = result (m ((c.tc : Thread nD τ).loc main_arg0))
      ∧ r.2.mem ((c.tc : Thread nD τ).loc main_arg0) = m ((c.tc : Thread nD τ).loc main_arg0) :=
  (θ_run defs _ _).mono (fun _ h c => ⟨(h c main_v4).trans (by after_results; rfl),
      (h c main_arg0).trans (by after_results)⟩)
    (run_seq scopedRefs_eq scopedSems_eq defs main (fun _ => ops) main_eq (fun _ => ops_sub) m ρ)

/-- The table's entry at position `k` is the `k`-th threshold's word. -/
theorem table_word (k : Fin 4) : lit0 (S4.rowMajor (ix1 k)) = Cert.Binarize.thresholdWord k.val := by
  fin_cases k <;> rfl

/-- At the exact instance the composition is the maps' function: at (n, k, h, w) the broadcast scores read score
    (n, 0, h, w) and the broadcast table reads word `k`. -/
theorem result_eq (x : FVec Ideal S32x1x1024x1024 .f32) : result (F := Ideal) x = Cert.Binarize.maps x := by
  funext j
  obtain ⟨n, k, h, w, rfl⟩ : ∃ (n : Fin 32) (k : Fin 4) (h : Fin 1024) (w : Fin 1024), j = ix4 n k h w :=
    ⟨j 0, j 1, j 2, j 3, eq_ix4 j⟩
  have hx : broadcastInDim S32x4x1024x1024 ![0, 1, 2, 3] bcast_S32x1x1024x1024_S32x4x1024x1024_0_1_2_3 x (ix4 n k h w)
      = x (ix4 n 0 h w) :=
    broadcastInDim_apply _ _ x (ix4 n k h w) (ix4 n 0 h w) (fun a => by
      match a with | ⟨0, _⟩ => rfl | ⟨1, _⟩ => rfl | ⟨2, _⟩ => rfl | ⟨3, _⟩ => rfl)
  have ht : broadcastInDim S32x4x1024x1024 ![0, 1, 2, 3] bcast_S1x4x1x1_S32x4x1024x1024_0_1_2_3
        (broadcastInDim S1x4x1x1 ![1] bcast_S4_S1x4x1x1_1 (fun i => FloatOps.ofBits (F := Ideal) .f32 (lit0 (S4.rowMajor i)))) (ix4 n k h w)
      = FloatOps.ofBits (F := Ideal) .f32 (Cert.Binarize.thresholdWord k.val) := by
    rw [broadcastInDim_apply _ _ _ (ix4 n k h w) (ix4 (0 : Fin 1) k (0 : Fin 1) (0 : Fin 1)) (fun a => by
      match a with | ⟨0, _⟩ => rfl | ⟨1, _⟩ => rfl | ⟨2, _⟩ => rfl | ⟨3, _⟩ => rfl)]
    rw [broadcastInDim_apply _ _ _ (ix4 (0 : Fin 1) k (0 : Fin 1) (0 : Fin 1)) (ix1 k) (fun a => by
      match a with | ⟨0, _⟩ => rfl)]
    exact congrArg _ (table_word k)
  show FloatOps.uitofp (F := Ideal) .f32 (FloatOps.cmpf (F := Ideal) .ogt _ _) = Cert.Binarize.above k.val (x (ix4 n 0 h w))
  rw [hx, ht]
  rfl

end Cert.ReferenceIdeal.RefValue

end
-- ==== Proof.lean ====
/-
  Four threshold maps of a score array: the kernel against the reference, over the extended reals.

  Both programs take scores x over [32, 1, 1024, 1024] and return, over [32, 4, 1024, 1024], at (n, k, h, w) the number
  1 if x(n, 0, h, w) > t_k and 0 otherwise, for the same four single-precision thresholds t₀ … t₃ (as words, never
  evaluated). That function is `Cert.Binarize.maps` (Proof/Bitmap.lean).
  * The kernel tiles the array by a 32 × 2 grid of blocks [1, 1, 512, 1024] → [1, 4, 512, 1024], writes each block of
    maps in four slabs, one per threshold, turning the comparison's bit into a number by a zero-extension to 32 bits
    and a signed conversion. One block after the body is `maps` restricted to it (Proof/KernelBlock.lean), the blocks
    cover the array, so the result array is `maps` of the scores (Proof/KernelArray.lean).
  * The reference broadcasts the scores along axis 1 and a table of the four words along the other axes, compares, and
    reads the bit as an unsigned number; read at an index this is `maps` too (Proof/ReferenceRun.lean).
  The two ways of reading a bit as a number agree because a bit widened by zeros has a clear sign bit. No law of the
  extended reals is needed, so the precondition (finite scores) is not used: a comparison with an infinite score is the
  same on both sides.
  The three programs' runs terminate without fault and leave the scores unchanged: for the two kernel programs this is
  the generated frame of the pipeline; for the reference it is its run with the result dropped. The idealized kernel is
  the kernel's own text read over the extended reals (nothing was rewritten), so there is nothing to preserve.
-/
import proofs.«163883_j34935263986230_1_alg».proof.Defs
import proofs.«163883_j34935263986230_1_alg».proof.Proof.Gen.Kernel
import proofs.«163883_j34935263986230_1_alg».proof.Proof.Gen.Kernel.Frame
import proofs.«163883_j34935263986230_1_alg».proof.Proof.Gen.KernelIdeal
import proofs.«163883_j34935263986230_1_alg».proof.Proof.Gen.KernelIdeal.Frame
import proofs.«163883_j34935263986230_1_alg».proof.Proof.Gen.KernelIdeal.Value
import proofs.«163883_j34935263986230_1_alg».proof.Proof.Gen.ReferenceIdeal
import proofs.«163883_j34935263986230_1_alg».proof.Proof.Gen.Pre_finite_inputs
import proofs.«163883_j34935263986230_1_alg».proof.Proof.KernelArray
import proofs.«163883_j34935263986230_1_alg».proof.Proof.ReferenceRun

noncomputable section

namespace Cert.Proof

open Idealize.ShloMosaic Idealize.ShloMosaic.TcCoe Idealize.SL.Sem

/-- The kernel as printed runs and leaves the scores unchanged. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- And the reference: its run, with what it says of the result dropped. -/
theorem frame_referenceIdeal : Cert.frame_ReferenceIdeal := fun m ρ _ =>
  (θ_run Cert.ReferenceIdeal.defs _ _).mono (fun _ h c => (h c).2) (Cert.ReferenceIdeal.RefValue.run (F := Ideal) m ρ)

/-- Nothing of the kernel's text was rewritten for the exact reading. -/
theorem preserves : Cert.preserves_Kernel_KernelIdeal := trivial

/-- From memories that agree on the scores both programs end with the result array at `maps` of the scores. -/
theorem algebraic : Cert.algebraic_KernelIdeal_ReferenceIdeal := by
  intro m ρ m' ρ' _ hagree
  refine ⟨_, Cert.KernelIdeal.ArrayValue.run m ρ, ?_⟩
  refine (θ_run Cert.ReferenceIdeal.defs _ _).mono (fun _ h c => ⟨(h c).1.trans ?_, (h c).2⟩)
    (Cert.ReferenceIdeal.RefValue.run (F := Ideal) m' ρ')
  rw [Cert.ReferenceIdeal.RefValue.result_eq, hagree c]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
